-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x128 : Shape := ⟨2, ![4096, 128]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) (main_arg3 : IVec S4096x128 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x128 : Shape := ⟨2, ![4096, 128]⟩
abbrev S4096x128x1 : Shape := ⟨3, ![4096, 128, 1]⟩
abbrev S32 : Shape := ⟨1, ![32]⟩
abbrev S1x1x32 : Shape := ⟨3, ![1, 1, 32]⟩
abbrev S4096x128x32 : Shape := ⟨3, ![4096, 128, 32]⟩
abbrev S_ : Shape := ⟨0, ![]⟩
abbrev S4096x1 : Shape := ⟨2, ![4096, 1]⟩
abbrev S8192x4096 : Shape := ⟨2, ![8192, 4096]⟩
abbrev S512x512 : Shape := ⟨2, ![512, 512]⟩
abbrev S512x4096 : Shape := ⟨2, ![512, 4096]⟩

abbrev nBuf : Space → Nat
  | .hbm => 29
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x128, .i32⟩
  | .hbm, ⟨4, _⟩ => ⟨S4096x128x1, .i32⟩
  | .hbm, ⟨5, _⟩ => ⟨S32, .i32⟩
  | .hbm, ⟨6, _⟩ => ⟨S1x1x32, .i32⟩
  | .hbm, ⟨7, _⟩ => ⟨S4096x128x32, .i32⟩
  | .hbm, ⟨8, _⟩ => ⟨S4096x128x32, .i32⟩
  | .hbm, ⟨9, _⟩ => ⟨S4096x128x32, .i32⟩
  | .hbm, ⟨10, _⟩ => ⟨S_, .i32⟩
  | .hbm, ⟨11, _⟩ => ⟨S4096x128x32, .i32⟩
  | .hbm, ⟨12, _⟩ => ⟨S4096x128x32, .i32⟩
  | .hbm, ⟨13, _⟩ => ⟨S4096x4096, .i32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S8192x4096, .f32⟩
  | .hbm, ⟨27, _⟩ => ⟨S8192x4096, .f32⟩
  | .hbm, ⟨28, _⟩ => ⟨S4x2048x4096, .f32⟩
  | .local _ .vmem, ⟨0, _⟩ => ⟨S512x512, .f32⟩
  | .local _ .vmem, ⟨1, _⟩ => ⟨S512x512, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S4096x128_S4096x128x1_0_1 : S4096x128.BroadcastsInDim S4096x128x1 (![0, 1] : Fin 2 → Fin S4096x128x1.rank)
  bcast_S32_S1x1x32_2 : S32.BroadcastsInDim S1x1x32 (![2] : Fin 1 → Fin S1x1x32.rank)
  bcast_S4096x128x1_S4096x128x32_0_1_2 : S4096x128x1.BroadcastsInDim S4096x128x32 (![0, 1, 2] : Fin 3 → Fin S4096x128x32.rank)
  bcast_S1x1x32_S4096x128x32_0_1_2 : S1x1x32.BroadcastsInDim S4096x128x32 (![0, 1, 2] : Fin 3 → Fin S4096x128x32.rank)
  bcast_S_S4096x128x32 : S_.BroadcastsInDim S4096x128x32 (![] : Fin 0 → Fin S4096x128x32.rank)
  shapeCasts_S4096x128x32_S4096x4096 : S4096x128x32.ShapeCasts S4096x4096
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bitsLt_bf16_f32 : FTy.bits .bf16 < FTy.bits .f32
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x4096_S512x4096 : S512x4096.ShapeCasts S512x4096
  shapeCasts_S8192x4096_S4x2048x4096 : S8192x4096.ShapeCasts S4x2048x4096
  dot_S512x512_S512x4096_S512x4096_1_0_0_1_n_n_wf : DotDims.WF S512x512 S512x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_v19) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x128 : Shape := ⟨2, ![4096, 128]⟩
abbrev S8192x4096 : Shape := ⟨2, ![8192, 4096]⟩
abbrev S4096x128x1 : Shape := ⟨3, ![4096, 128, 1]⟩
abbrev S32 : Shape := ⟨1, ![32]⟩
abbrev S1x1x32 : Shape := ⟨3, ![1, 1, 32]⟩
abbrev S4096x128x32 : Shape := ⟨3, ![4096, 128, 32]⟩
abbrev S_ : Shape := ⟨0, ![]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x128, .i32⟩
  | .hbm, ⟨4, _⟩ => ⟨S8192x4096, .f32⟩
  | .hbm, ⟨5, _⟩ => ⟨S4096x128x1, .i32⟩
  | .hbm, ⟨6, _⟩ => ⟨S32, .i32⟩
  | .hbm, ⟨7, _⟩ => ⟨S1x1x32, .i32⟩
  | .hbm, ⟨8, _⟩ => ⟨S4096x128x32, .i32⟩
  | .hbm, ⟨9, _⟩ => ⟨S4096x128x32, .i32⟩
  | .hbm, ⟨10, _⟩ => ⟨S4096x128x32, .i32⟩
  | .hbm, ⟨11, _⟩ => ⟨S_, .i32⟩
  | .hbm, ⟨12, _⟩ => ⟨S4096x128x32, .i32⟩
  | .hbm, ⟨13, _⟩ => ⟨S4096x128x32, .i32⟩
  | .hbm, ⟨14, _⟩ => ⟨S4096x4096, .i32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S4096x128_S4096x128x1_0_1 : S4096x128.BroadcastsInDim S4096x128x1 (![0, 1] : Fin 2 → Fin S4096x128x1.rank)
  bcast_S32_S1x1x32_2 : S32.BroadcastsInDim S1x1x32 (![2] : Fin 1 → Fin S1x1x32.rank)
  bcast_S4096x128x1_S4096x128x32_0_1_2 : S4096x128x1.BroadcastsInDim S4096x128x32 (![0, 1, 2] : Fin 3 → Fin S4096x128x32.rank)
  bcast_S1x1x32_S4096x128x32_0_1_2 : S1x1x32.BroadcastsInDim S4096x128x32 (![0, 1, 2] : Fin 3 → Fin S4096x128x32.rank)
  bcast_S_S4096x128x32 : S_.BroadcastsInDim S4096x128x32 (![] : Fin 0 → Fin S4096x128x32.rank)
  shapeCasts_S4096x128x32_S4096x4096 : S4096x128x32.ShapeCasts S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Arith.lean ====
/-
  The arithmetic of a matrix product against a fused weight, with no program in sight.

  One output entry of the fused product is a sum over the 4096 contraction indices of
  `x k * (b k + c k * s k)`, gathered in eight blocks of 512 that are added, in order, onto a zero
  accumulator.  The unfused form keeps two sums, `∑ x k * b k` and `∑ (x k * c k) * s k`.

  Regrouping eight block sums into one sum uses only that addition of extended reals is
  commutative and associative.  Splitting each term uses distributivity, which fails at the
  infinities, so it is stated for entries that are real numbers.
-/
import Idealize.ShloMosaic.PureOps.Ideal.Laws
import Idealize.ShloMosaic.Lib.ValueIdx

noncomputable section

namespace Cert.FusedWeight

/-- The sum of the 512 consecutive terms `512 j, …, 512 j + 511` of a sequence: one block of the contraction. -/
def blockSum (f : ℕ → EReal) (j : ℕ) : EReal := ∑ k : Fin 512, f (512 * j + k.val)

/-- The accumulator after block `n`: it starts from zero at block 0 and each later block is added onto it. -/
def accum (f : ℕ → EReal) : ℕ → EReal
  | 0 => 0 + blockSum f 0
  | n + 1 => accum f n + blockSum f (n + 1)

theorem accum_zero (f : ℕ → EReal) : accum f 0 = 0 + blockSum f 0 := rfl

theorem accum_succ (f : ℕ → EReal) (n : ℕ) : accum f (n + 1) = accum f n + blockSum f (n + 1) := rfl

/-- A position `n < 4096` written as block `n / 512`, offset `n % 512`: the pair `(j, k)` sits at `k + 512 j`. -/
theorem pair_val (p : Fin 8 × Fin 512) : ((finProdFinEquiv p : Fin (8 * 512)) : ℕ) = 512 * p.1.val + p.2.val := by
  show p.2.val + 512 * p.1.val = _
  omega

/-- After the eighth block the accumulator holds the sum of all 4096 terms. -/
theorem accum_seven (f : ℕ → EReal) : accum f 7 = ∑ n : Fin 4096, f n.val := by
  have h : accum f 7 = ∑ j : Fin 8, blockSum f j.val := by
    simp only [accum, zero_add, Fin.sum_univ_eight]
    rfl
  rw [h]
  unfold blockSum
  rw [← Fintype.sum_prod_type' (f := fun (j : Fin 8) (k : Fin 512) => f (512 * j.val + k.val))]
  show _ = ∑ n : Fin (8 * 512), f n.val
  rw [← (finProdFinEquiv (m := 8) (n := 512)).sum_comp (fun n : Fin (8 * 512) => f n.val)]
  exact Finset.sum_congr rfl fun p _ => by rw [pair_val]

/-- For real numbers, one term of the fused product splits into a term of each unfused product. -/
theorem term_split {x b c s : EReal} (hx : ∃ r : ℝ, x = r) (hb : ∃ r : ℝ, b = r) (hc : ∃ r : ℝ, c = r)
    (hs : ∃ r : ℝ, s = r) : x * (b + c * s) = x * b + (x * c) * s := by
  obtain ⟨x, rfl⟩ := hx
  obtain ⟨b, rfl⟩ := hb
  obtain ⟨c, rfl⟩ := hc
  obtain ⟨s, rfl⟩ := hs
  exact_mod_cast (by ring : x * (b + c * s) = x * b + (x * c) * s)

/-- The sequence whose blockwise accumulation is one entry of the fused product. -/
def fusedTerm (X B C S : Fin 4096 → EReal) (n : ℕ) : EReal :=
  if h : n < 4096 then X ⟨n, h⟩ * (B ⟨n, h⟩ + C ⟨n, h⟩ * S ⟨n, h⟩) else 0

/-- THE LAW: eight blocks of the fused product accumulated from zero are the two unfused products added,
    when every entry is a real number. -/
theorem fused_eq_split (X B C S : Fin 4096 → EReal) (hX : ∀ k, ∃ r : ℝ, X k = r) (hB : ∀ k, ∃ r : ℝ, B k = r)
    (hC : ∀ k, ∃ r : ℝ, C k = r) (hS : ∀ k, ∃ r : ℝ, S k = r) :
    accum (fusedTerm X B C S) 7 = ∑ k, X k * B k + ∑ k, (X k * C k) * S k := by
  rw [accum_seven, ← Finset.sum_add_distrib]
  refine Finset.sum_congr rfl fun k _ => ?_
  unfold fusedTerm
  rw [dif_pos k.isLt]
  exact term_split (hX k) (hB k) (hC k) (hS k)

/-! ## The two products as whole arrays

`X` is the 8192 × 4096 matrix of rows, `B` the 4096 × 4096 base weight, `C` the per-row scale of the weight
(one number per contraction index) and `S` the 4096 × 4096 matrix it scales. -/

open Idealize.ShloMosaic Idealize.ShloMosaic.ValueIdx

abbrev Rows : Shape := ⟨2, ![8192, 4096]⟩
abbrev Weights : Shape := ⟨2, ![4096, 4096]⟩
abbrev Scales : Shape := ⟨1, ![4096]⟩

/-- Entry (r, q) of the unfused result. -/
def splitEntry (X : Rows.Idx → EReal) (B : Weights.Idx → EReal) (C : Scales.Idx → EReal) (S : Weights.Idx → EReal)
    (r : Fin 8192) (q : Fin 4096) : EReal :=
  ∑ k : Fin 4096, X (ix2 r k) * B (ix2 k q) + ∑ k : Fin 4096, (X (ix2 r k) * C (ix1 k)) * S (ix2 k q)

/-- The unfused result: `X · B + (X ⊙ C) · S`, entry by entry. -/
def splitProduct (X : Rows.Idx → EReal) (B : Weights.Idx → EReal) (C : Scales.Idx → EReal) (S : Weights.Idx → EReal) :
    Rows.Idx → EReal := fun i => splitEntry X B C S (i 0) (i 1)

/-- Row `r` of `X` against column `q` of the fused weight `B + C ⊙ S`, as a sequence over the contraction index. -/
def fusedSeq (X : Rows.Idx → EReal) (B : Weights.Idx → EReal) (C : Scales.Idx → EReal) (S : Weights.Idx → EReal)
    (r : Fin 8192) (q : Fin 4096) : ℕ → EReal :=
  fusedTerm (fun k => X (ix2 r k)) (fun k => B (ix2 k q)) (fun k => C (ix1 k)) (fun k => S (ix2 k q))

/-- The fused result: `X · (B + C ⊙ S)`, each entry accumulated over eight blocks from zero. -/
def fusedProduct (X : Rows.Idx → EReal) (B : Weights.Idx → EReal) (C : Scales.Idx → EReal) (S : Weights.Idx → EReal) :
    Rows.Idx → EReal := fun i => accum (fusedSeq X B C S (i 0) (i 1)) 7

/-- For arrays of real numbers the fused and the unfused results are the same array. -/
theorem fusedProduct_eq_splitProduct (X : Rows.Idx → EReal) (B : Weights.Idx → EReal) (C : Scales.Idx → EReal)
    (S : Weights.Idx → EReal) (hX : ∀ i, ∃ r : ℝ, X i = r) (hB : ∀ i, ∃ r : ℝ, B i = r) (hC : ∀ i, ∃ r : ℝ, C i = r)
    (hS : ∀ i, ∃ r : ℝ, S i = r) : fusedProduct X B C S = splitProduct X B C S :=
  funext fun i => fused_eq_split _ _ _ _ (fun _ => hX _) (fun _ => hB _) (fun _ => hC _) (fun _ => hS _)

/-! ## The product against a weight that is already fused, block by block

What a blocked matrix product computes from `X` and any weight `W`; with `W = B + C ⊙ S` entry by entry it is the
fused product above. The row is a natural number here so that a row computed from a grid point needs no bound
carried in its type; outside the arrays the sequence is zero. -/

/-- Row `r` of `X` against column `q` of `W`, as a sequence over the contraction index. -/
def rowColSeq (X : Rows.Idx → EReal) (W : Weights.Idx → EReal) (r : ℕ) (q : Fin 4096) : ℕ → EReal := fun n =>
  if h : r < 8192 ∧ n < 4096 then X (ix2 ⟨r, h.1⟩ ⟨n, h.2⟩) * W (ix2 ⟨n, h.2⟩ q) else 0

/-- `X · W`, each entry accumulated over eight blocks from zero. -/
def blockwiseProduct (X : Rows.Idx → EReal) (W : Weights.Idx → EReal) : Rows.Idx → EReal :=
  fun i => accum (rowColSeq X W (i 0).val (i 1)) 7

theorem blockwiseProduct_eq_fused (X : Rows.Idx → EReal) (B : Weights.Idx → EReal) (C : Scales.Idx → EReal)
    (S W : Weights.Idx → EReal) (hW : ∀ k q : Fin 4096, W (ix2 k q) = B (ix2 k q) + C (ix1 k) * S (ix2 k q)) :
    blockwiseProduct X W = fusedProduct X B C S := by
  funext i
  unfold blockwiseProduct fusedProduct
  congr 1
  funext n
  unfold rowColSeq fusedSeq fusedTerm
  by_cases h : n < 4096
  · have h8 : (i 0).val < 8192 := (i 0).isLt
    rw [dif_pos ⟨h8, h⟩, dif_pos h]
    exact congrArg (X (ix2 (i 0) ⟨n, h⟩) * ·) (hW ⟨n, h⟩ (i 1))
  · rw [dif_neg (fun h' => h h'.2), dif_neg h]

end Cert.FusedWeight

end
-- ==== Proof.Pieces.lean ====
/-
  What one grid point leaves in the output's staging block, as the body's arithmetic of the blocks it was given.

  At a point that opens a row tile (the contraction coordinate is 0) the body first overwrites the whole block with
  zeros and then reads it back as the accumulator; at any other point the accumulator is what the previous point
  left.  Either way the block ends as accumulator + (x block · w block): one whole-block store on top, whose loads
  read whole staging buffers.
-/
import proofs.«411424_j76089640615939_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Accum

open Cert.KernelIdeal Cert.KernelIdeal.Gen

variable {F : FTy → Type} [FloatOps F]

theorem origin : (![0, 0] : Fin 2 → Nat) = fun _ => 0 := funext fun a => by fin_cases a <;> rfl

/-- A point inside a row tile: the block that held `acc` ends holding the body's sum of `acc` and the product of
    the two input blocks. -/
theorem carry_block (c : Dev nD) (i : grid0.Coords) (a2 : Memref sig .tc .vmem S512x512 .f32) (h2 : a2.IsWhole)
    (a3 : Memref sig .tc .vmem S512x4096 .bf16) (h3 : a3.IsWhole) (a4 : Memref sig .tc .vmem S512x4096 .f32) (h4 : a4.IsWhole)
    (hc : ¬cond0_0 i) (x : Vec F S512x512 .f32) (w : Vec F S512x4096 .bf16) (acc : Vec F S512x4096 .f32) :
    out0_B_2 c i a2 h2 a3 h3 a4 h4 hc x w acc = k0_pay2 x acc w := by
  unfold out0_B_2
  rw [View.read_writes_eq_canon _ _ _ (cover0_B_2 c i a2 h2 a3 h3 a4 h4 hc x w acc)]
  unfold kernelRun0_B
  dsimp only
  sl_unfold_words
  rw [View.canon_unit_zero origin]
  simp only [View.readAt_eq_ld, h2.read_unread, h3.read_unread, h4.read_unread, View.ld_unit_zero (S := S512x512) origin,
    View.ld_unit_zero (S := S512x4096) origin]

/-- A point that opens a row tile: the accumulator it adds onto is the zero block it has just stored. -/
theorem open_block (c : Dev nD) (i : grid0.Coords) (a2 : Memref sig .tc .vmem S512x512 .f32) (h2 : a2.IsWhole)
    (a3 : Memref sig .tc .vmem S512x4096 .bf16) (h3 : a3.IsWhole) (a4 : Memref sig .tc .vmem S512x4096 .f32) (h4 : a4.IsWhole)
    (hc : cond0_0 i) (x : Vec F S512x512 .f32) (w : Vec F S512x4096 .bf16) :
    out0_A_2 c i a2 h2 a3 h3 a4 h4 hc x w = k0_pay2 x (k0_pay1 (F := F)) w := by
  unfold out0_A_2
  rw [View.read_writes_eq_canon _ _ _ (cover0_A_2 c i a2 h2 a3 h3 a4 h4 hc x w)]
  unfold kernelRun0_A
  dsimp only
  sl_unfold_words
  rw [View.canon_cons_unit_zero (S := S512x4096) origin, View.readCov_unit_zero (S := S512x4096) _ origin]
  simp only [View.readAt_eq_ld, h2.read_unread, h3.read_unread, View.ld_unit_zero (S := S512x512) origin,
    View.ld_unit_zero (S := S512x4096) origin]

end Cert.KernelIdeal.Accum

end
-- ==== Proof.Payload.lean ====
/-
  The body's arithmetic at one entry, over the extended reals.

  The body adds onto the accumulator block the product of a 512 × 512 block of rows with a 512 × 4096 block of the
  weight.  Changing the float format of an operand and casting a block to its own shape do nothing to an extended
  real, and a product into a zero accumulator is the plain sum over the contracted axis.  So entry (p, q) of what
  the body stores is the accumulator's entry plus the sum over k < 512 of x(p, k) · w(k, q).
-/
import proofs.«411424_j76089640615939_3_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Accum

open Cert.KernelIdeal Cert.KernelIdeal.Gen

/-! The operand indices of the block product at output entry `i` and contraction index `q`: the left operand is
    read at (row of `i`, `q`), the right at (`q`, column of `i`). -/

theorem lhs_row (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide), dif_pos (show (0 : Fin S512x512.rank) ∈ dot_S512x512_S512x4096_S512x4096_1_0_0_1_n_n.lhsNonContracting by decide)]
  rfl
theorem lhs_contr (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
theorem rhs_contr (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
theorem rhs_col (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide), dif_pos (show (1 : Fin S512x4096.rank) ∈ dot_S512x512_S512x4096_S512x4096_1_0_0_1_n_n.rhsNonContracting by decide)]
  rfl

/-- The block product into a zero accumulator, at entry (p, q): the sum over the 512 contracted positions. -/
theorem block_product_apply (l : FVec Ideal S512x512 .bf16) (r : FVec Ideal S512x4096 .bf16) (p : Fin 512) (q : Fin 4096) :
    matmul (F := Ideal) dot_S512x512_S512x4096_S512x4096_1_0_0_1_n_n none l r (constant (F := Ideal) S512x4096 .f32 0x00000000#32) (ix2 p q)
      = ∑ k : Fin 512, l (ix2 p k) * r (ix2 k q) := by
  refine (Ideal.matmul_constant_zero_apply dot_S512x512_S512x4096_S512x4096_1_0_0_1_n_n none l r (ix2 p q)).trans ?_
  rw [← Equiv.sum_comp (ValueIdx.contrEquiv1 dot_S512x512_S512x4096_S512x4096_1_0_0_1_n_n 512 rfl rfl).symm]
  refine Finset.sum_congr rfl fun k _ => ?_
  have hk := ValueIdx.contrEquiv1_symm_val dot_S512x512_S512x4096_S512x4096_1_0_0_1_n_n 512 rfl rfl k
  have el : dot_S512x512_S512x4096_S512x4096_1_0_0_1_n_n.lhsIdx (ix2 p q) ((ValueIdx.contrEquiv1 dot_S512x512_S512x4096_S512x4096_1_0_0_1_n_n 512 rfl rfl).symm k) = ix2 p k := funext fun a => Fin.ext (by
    match a with
    | ⟨0, _⟩ => exact lhs_row _ _
    | ⟨1, _⟩ => exact (lhs_contr _ _).trans hk)
  have er : dot_S512x512_S512x4096_S512x4096_1_0_0_1_n_n.rhsIdx (ix2 p q) ((ValueIdx.contrEquiv1 dot_S512x512_S512x4096_S512x4096_1_0_0_1_n_n 512 rfl rfl).symm k) = ix2 k q := funext fun a => Fin.ext (by
    match a with
    | ⟨0, _⟩ => exact (rhs_contr _ _).trans hk
    | ⟨1, _⟩ => exact rhs_col _ _)
  rw [el, er]

/-- Entry (p, q) of what the body stores: the accumulator's entry plus the block product's. -/
theorem stored_apply (x : Vec Ideal S512x512 .f32) (acc : Vec Ideal S512x4096 .f32) (w : Vec Ideal S512x4096 .bf16)
    (p : Fin 512) (q : Fin 4096) :
    k0_pay2 (F := Ideal) x acc w (ix2 p q) = acc (ix2 p q) + ∑ k : Fin 512, x (ix2 p k) * w (ix2 k q) := by
  unfold k0_pay2
  rw [shapeCast_self, shapeCast_self, shapeCast_self]
  refine (addf_apply _ _ _).trans ?_
  rw [block_product_apply]
  rfl

/-- The zero block has the extended real 0 at every entry. -/
theorem zero_block_apply (i : S512x4096.Idx) : k0_pay1 (F := Ideal) i = 0 := by
  unfold k0_pay1
  show Ideal.ofBits .f32 0x00000000#32 = 0
  exact Ideal.ofBits_zero_f32

end Cert.KernelIdeal.Accum

end
-- ==== Proof.Weight.lean ====
/-
  What the kernel's pallas_call finds in its two input arrays.

  Before the call the program unpacks the 32 bits of every mask word into a 4096 × 4096 matrix of 0/1 integers,
  converts it to floats and maps it by s ↦ 2 s − 1; scales row k of that matrix by coeff k; adds the base weight;
  and changes the format of the sum.  It also reshapes x to 8192 rows.  At the extended reals the format change is
  the identity, so entry (k, q) of the weight the call is given is  base (k, q) + coeff k · sign (k, q).

  The sign matrix is kept as one term: both programs compute it by the same operations, so nothing about the bits
  is needed except that a converted integer, doubled, less one, is a real number.
-/
import proofs.«411424_j76089640615939_3_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.KernelIdeal.Accum

open Cert.KernelIdeal Cert.KernelIdeal.Gen

section AnyFloat

variable {F : FTy → Type} [FloatOps F]

/-- The matrix of signs: bit `j` of mask word (k, w) lands at (k, 32 w + j), as −1 or +1. -/
def signMatrix (mask : (⟨S4096x128, .i32⟩ : BufTy).Contents (Elt F)) : (⟨S4096x4096, .f32⟩ : BufTy).Contents (Elt F) :=
  subf (mulf (sitofp .f32 (shapeCast _ (andi (Host.shrsi (broadcastInDim S4096x128x32 ![0, 1, 2] bcast_S4096x128x1_S4096x128x32_0_1_2 (broadcastInDim S4096x128x1 ![0, 1] bcast_S4096x128_S4096x128x1_0_1 mask)) (broadcastInDim S4096x128x32 ![0, 1, 2] bcast_S1x1x32_S4096x128x32_0_1_2 (broadcastInDim S1x1x32 ![2] bcast_S32_S1x1x32_2 (iotaInDim S32 32 0)))) (broadcastInDim S4096x128x32 ![] bcast_S_S4096x128x32 (constantI S_ 32 1#32))) shapeCasts_S4096x128x32_S4096x4096)) (broadcastInDim S4096x4096 ![] bcast_S_S4096x4096 (constant S_ .f32 0x40000000#32))) (broadcastInDim S4096x4096 ![] bcast_S_S4096x4096 (constant S_ .f32 0x3F800000#32))

/-- The weight the call is given: the base weight plus the row-scaled signs, in the narrower float format. -/
def fusedWeight (base : (⟨S4096x4096, .f32⟩ : BufTy).Contents (Elt F)) (coeff : (⟨S4096, .f32⟩ : BufTy).Contents (Elt F))
    (mask : (⟨S4096x128, .i32⟩ : BufTy).Contents (Elt F)) : (⟨S4096x4096, .bf16⟩ : BufTy).Contents (Elt F) :=
  truncf .bf16 (addf base (mulf (broadcastInDim S4096x4096 ![0, 1] bcast_S4096x1_S4096x4096_0_1 (broadcastInDim S4096x1 ![0] bcast_S4096_S4096x1_0 coeff)) (signMatrix mask))) bitsLt_bf16_f32

/-- x with its two leading axes merged. -/
def rowsOf (x : (⟨S4x2048x4096, .f32⟩ : BufTy).Contents (Elt F)) : (⟨S8192x4096, .f32⟩ : BufTy).Contents (Elt F) :=
  shapeCast _ x shapeCasts_S4x2048x4096_S8192x4096

variable (m : (ℓ : Loc nD τ sig) → Buf (Elt F) ℓ)

/-- The call's weight operand is the fused weight of the three weight arguments. -/
theorem weight_found (c : Dev nD) : V m c main_v18
    = fusedWeight (m ((c.tc : Thread nD τ).loc main_arg1)) (m ((c.tc : Thread nD τ).loc main_arg2)) (m ((c.tc : Thread nD τ).loc main_arg3)) := by
  show StableHlo.after hostOps0 (fun b => m (c, b)) (Proc.devRef .tc main_v18) = _
  after_results
  rfl

/-- The call's row operand is x with its leading axes merged. -/
theorem rows_found (c : Dev nD) : V m c main_v19 = rowsOf (m ((c.tc : Thread nD τ).loc main_arg0)) := by
  show StableHlo.after hostOps0 (fun b => m (c, b)) (Proc.devRef .tc main_v19) = _
  after_results
  rfl

end AnyFloat

/-! ## At the extended reals -/

/-- An f32 word whose exponent field is not all ones reads as a real number. -/
theorem f32_word_real (b : BitVec 32) (h : (b.extractLsb' 23 8).toNat ≠ 2 ^ 8 - 1) : ∃ r : ℝ, Ideal.ofBits .f32 b = r := by
  show ∃ r : ℝ, Ideal.ieee 8 23 b = r
  unfold Ideal.ieee
  dsimp only
  rw [if_neg h]
  split_ifs <;> exact ⟨_, rfl⟩

/-- Every sign is a real number: an integer, times a real constant, less a real constant. -/
theorem signMatrix_real (mask : (⟨S4096x128, .i32⟩ : BufTy).Contents (Elt Ideal)) (i : S4096x4096.Idx) :
    ∃ r : ℝ, signMatrix (F := Ideal) mask i = r := by
  obtain ⟨two, h2⟩ := f32_word_real 0x40000000#32 (by decide)
  obtain ⟨one, h1⟩ := f32_word_real 0x3F800000#32 (by decide)
  have e : ∀ z : ℤ, ((z : ℝ) : EReal) * Ideal.ofBits .f32 0x40000000#32 - Ideal.ofBits .f32 0x3F800000#32
      = (((z : ℝ) * two - one : ℝ) : EReal) := fun z => by rw [h2, h1, ← EReal.coe_mul, ← EReal.coe_sub]
  unfold signMatrix
  rw [subf_apply, mulf_apply, sitofp_apply]
  exact ⟨_, e _⟩

/-- Entry (k, q) of the fused weight: base (k, q) + coeff k · sign (k, q). -/
theorem fusedWeight_apply (base : (⟨S4096x4096, .f32⟩ : BufTy).Contents (Elt Ideal)) (coeff : (⟨S4096, .f32⟩ : BufTy).Contents (Elt Ideal))
    (mask : (⟨S4096x128, .i32⟩ : BufTy).Contents (Elt Ideal)) (k q : Fin 4096) :
    fusedWeight (F := Ideal) base coeff mask (ix2 k q) = base (ix2 k q) + coeff (ix1 k) * signMatrix (F := Ideal) mask (ix2 k q) := by
  unfold fusedWeight
  show base (ix2 k q) + broadcastInDim S4096x4096 ![0, 1] bcast_S4096x1_S4096x4096_0_1 (broadcastInDim S4096x1 ![0] bcast_S4096_S4096x1_0 coeff) (ix2 k q)
      * signMatrix (F := Ideal) mask (ix2 k q) = _
  congr 2
  refine (broadcastInDim_apply _ bcast_S4096x1_S4096x4096_0_1 _ (ix2 k q) (ix2 k (0 : Fin 1)) (fun a => ?_)).trans
    (broadcastInDim_apply _ bcast_S4096_S4096x1_0 coeff (ix2 k (0 : Fin 1)) (ix1 k) (fun a => ?_))
  · match a with
    | ⟨0, _⟩ => show k.val = if (4096 : Nat) = 1 then 0 else k.val; rw [if_neg (by decide)]
    | ⟨1, _⟩ => show 0 = if (1 : Nat) = 1 then 0 else q.val; rw [if_pos rfl]
  · match a with
    | ⟨0, _⟩ => show k.val = if (4096 : Nat) = 1 then 0 else k.val; rw [if_neg (by decide)]

/-- Merging axes moves entries and changes none: if x is real-valued so are its rows. -/
theorem rowsOf_real (x : (⟨S4x2048x4096, .f32⟩ : BufTy).Contents (Elt Ideal)) (hx : ∀ j, ∃ r : ℝ, x j = r) (i : S8192x4096.Idx) :
    ∃ r : ℝ, rowsOf (F := Ideal) x i = r := by
  unfold rowsOf shapeCast
  exact hx _

end Cert.KernelIdeal.Accum

end
-- ==== Proof.Blocks.lean ====
/-
  The kernel's result array, read off its run.

  The grid is 16 row tiles × 8 contraction blocks, the contraction block innermost, so point t works on row tile
  t / 8 and contraction block t % 8: it is given rows 512 (t / 8) … of x restricted to columns 512 (t % 8) …, and rows
  512 (t % 8) … of the weight, all 4096 columns.  The output block of a row tile stays in its staging buffer across
  the eight points of the tile and is written back after the last.

  So after point n, entry (p, q) of the block is the accumulator after block n % 8 of the sequence
  k ↦ x(512 (n / 8) + p, k) · w(k, q): zero at the point that opens the tile, one more block of 512 terms at each
  later point (induction on n).  At the points ≡ 7 (mod 8) that is the finished entry; those sixteen blocks tile the
  8192 rows, which gives the whole array; the reshape after the call gives the result.
-/
import proofs.«411424_j76089640615939_3_alg».proof.Proof.Arith
import proofs.«411424_j76089640615939_3_alg».proof.Proof.Pieces
import proofs.«411424_j76089640615939_3_alg».proof.Proof.Payload
import proofs.«411424_j76089640615939_3_alg».proof.Proof.Weight
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.FusedWeight

variable (m : (ℓ : Loc nD τ sig) → Buf (Elt Ideal) ℓ) (ρ : Dev nD → PrngReg)

/-- The two arrays the call reads, as it finds them, and the blocks of them a point is given. -/
abbrev rowsArr (c : Dev nD) : Rows.Idx → EReal := V m c main_v19
abbrev weightArr (c : Dev nD) : Weights.Idx → EReal := V m c main_v18
abbrev xblk (c : Dev nD) (t : Fin cfg0.N) : Vec Ideal S512x512 .f32 := iblk m c 0 t
abbrev wblk (c : Dev nD) (t : Fin cfg0.N) : Vec Ideal S512x4096 .bf16 := iblk m c 1 t

/-- The block each window is on at point t: row tile t / 8, contraction block t % 8. -/
theorem block_indices : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry (p, k) of the x block of point t is entry (512 (t / 8) + p, 512 (t % 8) + k) of the rows. -/
theorem xblk_read (c : Dev nD) (t : Fin cfg0.N) (p k : Fin 512) (i : Rows.Idx)
    (h0 : (i 0).val = 512 * (t.val / 8) + p.val) (h1 : (i 1).val = 512 * (t.val % 8) + k.val) :
    xblk m c t (ix2 p k) = rowsArr m c i := by
  obtain ⟨e0, e1, -⟩ := block_indices t
  show ((cfg0.win 0).blk t).view.read (Elt Ideal) (V m c (Pipeline.arrRef spec0 0)) (ix2 p k) = V m c main_v19 i
  rw [View.read_apply]
  show V m c main_v19 _ = V m c main_v19 i
  congr 1
  funext a
  apply Fin.ext
  match a with
  | ⟨0, _⟩ => show win0_0.index t (0 : Fin 2) * 512 + 1 * p.val = (i 0).val; rw [e0, h0]; omega
  | ⟨1, _⟩ => show win0_0.index t (1 : Fin 2) * 512 + 1 * k.val = (i 1).val; rw [e1, h1]; omega

/-- Entry (k, q) of the weight block of point t is entry (512 (t % 8) + k, q) of the weight. -/
theorem wblk_read (c : Dev nD) (t : Fin cfg0.N) (k : Fin 512) (q : Fin 4096) (i : Weights.Idx)
    (h0 : (i 0).val = 512 * (t.val % 8) + k.val) (h1 : (i 1).val = q.val) :
    wblk m c t (ix2 k q) = weightArr m c i := by
  obtain ⟨-, -, e2, e3, -⟩ := block_indices t
  show ((cfg0.win 1).blk t).view.read (Elt Ideal) (V m c (Pipeline.arrRef spec0 1)) (ix2 k q) = V m c main_v18 i
  rw [View.read_apply]
  show V m c main_v18 _ = V m c main_v18 i
  congr 1
  funext a
  apply Fin.ext
  match a with
  | ⟨0, _⟩ => show win0_1.index t (0 : Fin 2) * 512 + 1 * k.val = (i 0).val; rw [e2, h0]; omega
  | ⟨1, _⟩ => show win0_1.index t (1 : Fin 2) * 4096 + 1 * q.val = (i 1).val; rw [e3, h1]; omega

/-- The product of the two blocks of point t, at entry (p, q), is block t % 8 of row 512 (t / 8) + p against column q. -/
theorem block_term (c : Dev nD) (t : Fin cfg0.N) (p : Fin 512) (q : Fin 4096) :
    ∑ k : Fin 512, xblk m c t (ix2 p k) * wblk m c t (ix2 k q)
      = blockSum (rowColSeq (rowsArr m c) (weightArr m c) (512 * (t.val / 8) + p.val) q) (t.val % 8) := by
  have hN : t.val < 128 := lt_of_lt_of_eq t.isLt (show cfg0.N = 128 from N_0)
  unfold blockSum
  refine Finset.sum_congr rfl fun k _ => ?_
  unfold rowColSeq
  have hr : 512 * (t.val / 8) + p.val < 8192 ∧ 512 * (t.val % 8) + k.val < 4096 := by
    have := p.isLt; have := k.isLt; omega
  rw [dif_pos hr]
  exact congrArg₂ (· * ·)
    (xblk_read m c t p k (ix2 ⟨512 * (t.val / 8) + p.val, hr.1⟩ ⟨512 * (t.val % 8) + k.val, hr.2⟩) rfl rfl)
    (wblk_read m c t k q (ix2 ⟨512 * (t.val % 8) + k.val, hr.2⟩ q) rfl rfl)

/-- A point that opens a row tile leaves zero plus its block product. -/
theorem point_open (c : Dev nD) (t : Fin cfg0.N) (h0 : t.val % 8 = 0) (p : Fin 512) (q : Fin 4096) :
    outsAt0 m c t.val t.isLt (ix2 p q) = 0 + ∑ k : Fin 512, xblk m c t (ix2 p k) * wblk m c t (ix2 k q) := by
  rw [outsAt0_A m c t h0]
  refine (congrFun (open_block (F := Ideal) c (grid0.coords t) (ms0_0 t) (hs0_0 t) (ms0_1 t) (hs0_1 t) (ms0_2 t) (hs0_2 t)
    ((hcond0_0 t).mpr h0) (xblk m c t) (wblk m c t)) (ix2 p q)).trans ?_
  refine (stored_apply (xblk m c t) (k0_pay1 (F := Ideal)) (wblk m c t) p q).trans ?_
  rw [zero_block_apply]

/-- Any other point adds its block product onto what the point before left. -/
theorem point_carry (c : Dev nD) (t : Fin cfg0.N) (h0 : ¬t.val % 8 = 0) (p : Fin 512) (q : Fin 4096) :
    outsAt0 m c t.val t.isLt (ix2 p q)
      = outsAt0 m c (t.val - 1) (Nat.lt_of_le_of_lt (Nat.sub_le _ _) t.isLt) (ix2 p q)
        + ∑ k : Fin 512, xblk m c t (ix2 p k) * wblk m c t (ix2 k q) := by
  rw [outsAt0_B m c t h0]
  refine (congrFun (carry_block (F := Ideal) c (grid0.coords t) (ms0_0 t) (hs0_0 t) (ms0_1 t) (hs0_1 t) (ms0_2 t) (hs0_2 t)
    (fun h => h0 ((hcond0_0 t).mp h)) (xblk m c t) (wblk m c t)
    (outsAt0 m c (t.val - 1) (Nat.lt_of_le_of_lt (Nat.sub_le _ _) t.isLt))) (ix2 p q)).trans ?_
  exact stored_apply (xblk m c t) (outsAt0 m c (t.val - 1) (Nat.lt_of_le_of_lt (Nat.sub_le _ _) t.isLt)) (wblk m c t) p q

/-- THE INVARIANT: after point n, entry (p, q) of the output block is the accumulator after block n % 8 of row
    512 (n / 8) + p against column q. -/
theorem block_after (c : Dev nD) (p : Fin 512) (q : Fin 4096) : ∀ (n : ℕ) (h : n < cfg0.N),
    outsAt0 m c n h (ix2 p q) = accum (rowColSeq (rowsArr m c) (weightArr m c) (512 * (n / 8) + p.val) q) (n % 8) := by
  intro n
  induction n with
  | zero =>
    intro h
    rw [point_open m c ⟨0, h⟩ rfl p q, block_term m c ⟨0, h⟩ p q]
    rfl
  | succ n ih =>
    intro h
    have hN : n + 1 < 128 := lt_of_lt_of_eq h (show cfg0.N = 128 from N_0)
    by_cases h0 : (n + 1) % 8 = 0
    · rw [point_open m c ⟨n + 1, h⟩ h0 p q, block_term m c ⟨n + 1, h⟩ p q]
      show 0 + blockSum _ ((n + 1) % 8) = accum _ ((n + 1) % 8)
      rw [h0]
      rfl
    · rw [point_carry m c ⟨n + 1, h⟩ h0 p q, block_term m c ⟨n + 1, h⟩ p q]
      show outsAt0 m c n _ (ix2 p q) + blockSum (rowColSeq _ _ (512 * ((n + 1) / 8) + p.val) q) ((n + 1) % 8) = _
      rw [ih (Nat.lt_of_succ_lt h)]
      have e1 : (n + 1) % 8 = n % 8 + 1 := by omega
      have e2 : (n + 1) / 8 = n / 8 := by omega
      rw [e1, e2, accum_succ]

/-- The same at any entry of the block. -/
theorem block_after_at (c : Dev nD) (n : ℕ) (h : n < cfg0.N) (j : S512x4096.Idx) :
    outsAt0 m c n h j = accum (rowColSeq (rowsArr m c) (weightArr m c) (512 * (n / 8) + (j 0).val) (j 1)) (n % 8) := by
  exact (congrArg (outsAt0 m c n h) (eq_ix2 j)).trans (block_after m c (j 0) (j 1) n h)

/-- The array the call leaves: rows · weight, blockwise. -/
abbrev resultArr (c : Dev nD) : Rows.Idx → EReal := blockwiseProduct (rowsArr m c) (weightArr m c)

/-- What a closing point of a row tile writes back is its block of that array. -/
theorem flushed_eq (c : Dev nD) (t : Fin cfg0.N) (hf : (cfg0.win 2).flush t = true) :
    (dats m 0 c).flushed 2 t = ((cfg0.win 2).blk t).view.read (Elt Ideal) (resultArr m c) := by
  have h7 : t.val % 8 = 7 := (flush0_2 t).mp hf
  obtain ⟨-, -, -, -, e4, e5⟩ := block_indices t
  show (cfg0.win 2).cut (grid0.coords t) ((dats m 0 c).after 2 t) = _
  rw [after0_2]
  refine funext fun (j : S512x4096.Idx) => ?_
  show outsAt0 m c t.val t.isLt j = resultArr m c (((cfg0.win 2).blk t).view.emb j)
  rw [block_after_at m c t.val t.isLt j, h7]
  have r0 : ((((cfg0.win 2).blk t).view.emb j) 0).val = 512 * (t.val / 8) + (j 0).val := by
    show win0_2.index t (0 : Fin 2) * 512 + 1 * (j 0).val = _
    rw [e4]; omega
  have r1 : (((cfg0.win 2).blk t).view.emb j) 1 = j 1 := Fin.ext (by
    show win0_2.index t (1 : Fin 2) * 4096 + 1 * (j 1).val = (j 1).val
    rw [e5]; omega)
  show _ = accum (rowColSeq _ _ ((((cfg0.win 2).blk t).view.emb j) 0).val ((((cfg0.win 2).blk t).view.emb j) 1)) 7
  rw [r0, r1]

/-- An entry of the array is in the block of point t iff each coordinate is in the block's range. -/
theorem mem_block (t : Fin cfg0.N) (i : Rows.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v20).slice (win0_2.rect t)).set ↔ _
  rw [View.set_slice_whole, Rect.mem_set_unit]
  exact Iff.rfl

/-- Row r lies in the block written back at the last point of its tile, 8 (r / 512) + 7. -/
theorem covered (i : Rows.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  have ht : 8 * ((i 0).val / 512) + 7 < cfg0.N := by omega
  refine ⟨⟨8 * ((i 0).val / 512) + 7, ht⟩, (flush0_2 _).mpr (by show (8 * ((i 0).val / 512) + 7) % 8 = 7; omega), ?_⟩
  rw [mem_block]
  obtain ⟨-, -, -, -, e4, e5⟩ := block_indices ⟨8 * ((i 0).val / 512) + 7, ht⟩
  intro a
  match a with
  | ⟨0, _⟩ =>
    show win0_2.index ⟨8 * ((i 0).val / 512) + 7, ht⟩ (0 : Fin 2) * 512 ≤ (i 0).val
      ∧ (i 0).val < win0_2.index ⟨8 * ((i 0).val / 512) + 7, ht⟩ (0 : Fin 2) * 512 + 512
    rw [e4]
    show (8 * ((i 0).val / 512) + 7) / 8 * 512 ≤ (i 0).val ∧ (i 0).val < (8 * ((i 0).val / 512) + 7) / 8 * 512 + 512
    omega
  | ⟨1, _⟩ =>
    show win0_2.index ⟨8 * ((i 0).val / 512) + 7, ht⟩ (1 : Fin 2) * 4096 ≤ (i 1).val
      ∧ (i 1).val < win0_2.index ⟨8 * ((i 0).val / 512) + 7, ht⟩ (1 : Fin 2) * 4096 + 4096
    rw [e5]
    omega

/-- So the call's result array ends holding rows · weight. -/
theorem array_after (c : Dev nD) : (dats m 0 c).arrAt 2 cfg0.N = resultArr m c :=
  (dats m 0 c).arrAt_eq_of_cover 2 (resultArr m c) (flushed_eq m c) covered

end Cert.KernelIdeal.Accum

end
-- ==== Proof.Result.lean ====
/-
  The kernel's run, read: the program's result and its four arguments after every execution.

  After the call one reshape splits the 8192 rows back into 4 × 2048.  The frame's run says every buffer that is
  no array of the call ends as the lines after the call leave it; the result buffer is the reshape of the call's
  output array, which is rows · weight (blockwise), and no line after the call touches an argument.
-/
import proofs.«411424_j76089640615939_3_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.FusedWeight

variable (m : (ℓ : Loc nD τ sig) → Buf (Elt Ideal) ℓ) (ρ : Dev nD → PrngReg)

/-- A two-dimensional result with its rows split into 4 × 2048: the program's last line. -/
def splitRows (y : Rows.Idx → EReal) : (⟨S4x2048x4096, .f32⟩ : BufTy).Contents (Elt Ideal) :=
  shapeCast S4x2048x4096 y shapeCasts_S8192x4096_S4x2048x4096

/-- The result buffer after the line that follows the call. -/
theorem result_after (c : Dev nD) :
    Pipeline.afterTail₀ cfgs (dats m) 0 (V0 m) [hostOps1] c main_v21 = splitRows (resultArr m c) := by
  unfold Pipeline.afterTail₀
  show StableHlo.after hostOps1 _ (Proc.devRef .tc main_v21) = _
  after_results
  exact congrArg splitRows ((Pipeline.withArrays_arr spec0 launch0.win.arr_inj c _ _ 2).trans (array_after m c))

/-- Every weakly fair execution of the idealized kernel ends with the result at rows · weight, split, and the
    arguments as launched. -/
theorem run : θ_run defs (onTc (τ := τ) (main (F := Ideal))) ⟨m, fun _ => 0, ρ⟩ fun r => ∀ c : Dev nD,
      r.2.mem ((c.tc : Thread nD τ).loc main_v21) = splitRows (resultArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v21 (Pipeline.mem_restRefs_of main_v21 (by decide) (by decide))).trans (result_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Accum

end
-- ==== Proof.Reference.lean ====
/-
  The reference's result, as the unfused product of its own stages.

  The reference computes x · base_t by one matrix product, scales the columns of x by coeff and multiplies by the
  sign matrix in a second product, and adds the two.  Read entry by entry over the extended reals that is
  ∑ₖ x(r, k) · base(k, q)  +  ∑ₖ (x(r, k) · coeff k) · sign(k, q).
-/
import proofs.«411424_j76089640615939_3_alg».proof.Proof.Arith
import proofs.«411424_j76089640615939_3_alg».proof.Proof.Gen.ReferenceIdeal.Read

noncomputable section

open Idealize.ShloMosaic Idealize.ShloMosaic.TcCoe Idealize.SL.Sem Idealize.ShloMosaic.ValueIdx

namespace Cert.ReferenceIdeal.Split

open Cert.ReferenceIdeal Cert.ReferenceIdeal.Read Cert.FusedWeight

/-- The reference's two-dimensional result is the unfused product of the merged rows of x, the base weight, the
    scales and the sign matrix. -/
theorem sum_of_products (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x128, .i32⟩ : BufTy).Contents (Elt Ideal)) :
    val_main_v20 (F := Ideal) x0 x1 x2 x3
      = splitProduct (val_main_v0 (F := Ideal) x0) x1 x2 (val_main_v14 (F := Ideal) x3) := by
  funext i
  rw [val_main_v20_apply, val_main_v15_apply, val_main_v19_apply]
  show (∑ k : Fin 4096, _) + (∑ k : Fin 4096, _) = splitEntry _ _ _ _ (i 0) (i 1)
  unfold splitEntry
  congr 1
  · refine Finset.sum_congr rfl fun k _ => ?_
    have el : lidx_main_v15 i k = ix2 (i 0) k := funext fun a => Fin.ext (by match a with | ⟨0, _⟩ => rfl | ⟨1, _⟩ => rfl)
    have er : ridx_main_v15 i k = ix2 k (i 1) := funext fun a => Fin.ext (by match a with | ⟨0, _⟩ => rfl | ⟨1, _⟩ => rfl)
    exact congrArg₂ (· * ·) (congrArg (val_main_v0 (F := Ideal) x0) el) (congrArg x1 er)
  · refine Finset.sum_congr rfl fun k _ => ?_
    have el : lidx_main_v19 i k = ix2 (i 0) k := funext fun a => Fin.ext (by match a with | ⟨0, _⟩ => rfl | ⟨1, _⟩ => rfl)
    have er : ridx_main_v19 i k = ix2 k (i 1) := funext fun a => Fin.ext (by match a with | ⟨0, _⟩ => rfl | ⟨1, _⟩ => rfl)
    have ec : idx_main_v16 (idx_main_v17 (lidx_main_v19 i k)) = ix1 k := funext fun a => Fin.ext (by match a with | ⟨0, _⟩ => rfl)
    have e18 : val_main_v18 (F := Ideal) x0 x2 (lidx_main_v19 i k) = val_main_v0 (F := Ideal) x0 (ix2 (i 0) k) * x2 (ix1 k) := by
      rw [val_main_v18_apply, val_main_v17_apply, val_main_v16_apply]
      exact congrArg₂ (· * ·) (congrArg (val_main_v0 (F := Ideal) x0) el) (congrArg x2 ec)
    exact congrArg₂ (· * ·) e18 (congrArg (val_main_v14 (F := Ideal) x3) er)

end Cert.ReferenceIdeal.Split

end
-- ==== Proof.Bridge.lean ====
/-
  The two results are the same array.

  The kernel's output array is rows · weight accumulated blockwise, with rows = x merged and
  weight (k, q) = base (k, q) + coeff k · sign (k, q): the fused product.  The reference's is the unfused product
  of the same four arrays: its merged x and its sign matrix are the same operations of the same arguments as the
  kernel's.  When x, base and coeff are real-valued (the signs always are) the two products agree.
-/
import proofs.«411424_j76089640615939_3_alg».proof.Proof.Result
import proofs.«411424_j76089640615939_3_alg».proof.Proof.Reference

noncomputable section

open Idealize.ShloMosaic Idealize.ShloMosaic.TcCoe Idealize.SL.Sem Idealize.ShloMosaic.ValueIdx

namespace Cert.Proof.Bridge

open Cert.KernelIdeal Cert.KernelIdeal.Gen Cert.KernelIdeal.Accum Cert.FusedWeight

variable (m : (ℓ : Loc nD τ sig) → Buf (Elt Ideal) ℓ)

/-- The kernel's output array is the fused product of its arguments. -/
theorem kernel_array (c : Dev nD) :
    resultArr m c = fusedProduct (rowsOf (F := Ideal) (m ((c.tc : Thread nD τ).loc main_arg0))) (m ((c.tc : Thread nD τ).loc main_arg1))
      (m ((c.tc : Thread nD τ).loc main_arg2)) (signMatrix (F := Ideal) (m ((c.tc : Thread nD τ).loc main_arg3))) := by
  have e1 : rowsArr m c = rowsOf (F := Ideal) (m ((c.tc : Thread nD τ).loc main_arg0)) := rows_found m c
  have e2 : weightArr m c = fusedWeight (F := Ideal) (m ((c.tc : Thread nD τ).loc main_arg1)) (m ((c.tc : Thread nD τ).loc main_arg2))
      (m ((c.tc : Thread nD τ).loc main_arg3)) := weight_found m c
  show blockwiseProduct (rowsArr m c) (weightArr m c) = _
  rw [e1, e2]
  exact blockwiseProduct_eq_fused _ _ _ _ _ (fun k q => fusedWeight_apply _ _ _ k q)

/-- For real-valued x, base and coeff the kernel's output array is the reference's two-dimensional result of the
    same arguments. -/
theorem result_agrees (c : Dev nD)
    (hx : ∀ j, ∃ r : ℝ, (m ((c.tc : Thread nD τ).loc main_arg0) : S4x2048x4096.Idx → EReal) j = (r : EReal))
    (hb : ∀ j, ∃ r : ℝ, (m ((c.tc : Thread nD τ).loc main_arg1) : S4096x4096.Idx → EReal) j = (r : EReal))
    (hc : ∀ j, ∃ r : ℝ, (m ((c.tc : Thread nD τ).loc main_arg2) : S4096.Idx → EReal) j = (r : EReal)) :
    resultArr m c = Cert.ReferenceIdeal.Read.val_main_v20 (F := Ideal) (m ((c.tc : Thread nD τ).loc main_arg0))
      (m ((c.tc : Thread nD τ).loc main_arg1)) (m ((c.tc : Thread nD τ).loc main_arg2)) (m ((c.tc : Thread nD τ).loc main_arg3)) := by
  rw [kernel_array, Cert.ReferenceIdeal.Split.sum_of_products]
  exact fusedProduct_eq_splitProduct _ _ _ _ (rowsOf_real _ hx) hb hc (signMatrix_real _)

end Cert.Proof.Bridge

end
-- ==== Proof.Finite.lean ====
/-
  What the precondition says: every entry of the three float inputs is a real number.

  The precondition is the conjunction of three tests `all (|a| < +∞)`.  Each `all` is an and-reduction to a single
  truth value, so if it is true the comparison is true at every index; and an extended real whose absolute value
  max a (−a) is below +∞ is neither infinity.
-/
import proofs.«411424_j76089640615939_3_alg».proof.Pre_finite_inputs
import Idealize.ShloMosaic.Lib.ReduceAll
import Idealize.ShloMosaic.Lib.ValueIdx
import Idealize.ShloMosaic.PureOps.Ideal.Laws

noncomputable section

open Idealize.ShloMosaic

namespace Cert.Pre_finite_inputs.Finite

open Cert.Pre_finite_inputs

theorem scalarIdx : Subsingleton S_.Idx := ⟨fun a b => funext fun d => d.elim0⟩

/-- The word the tests compare against is +∞. -/
theorem inf_word : Ideal.ofBits .f32 0x7F800000#32 = (⊤ : EReal) := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = r := by
  rw [inf_word] at h
  have hlt : max x (-x) < ⊤ := by
    by_contra hn
    unfold Ideal.cmp at h
    simp [hn] at h
  induction x using EReal.rec with
  | bot => simp at hlt
  | coe r => exact ⟨r, rfl⟩
  | top => simp at hlt

variable [Facts]

/-- Under the precondition x, base_t and coeff are arrays of real numbers. -/
theorem inputs_real (a0 : FVec Ideal S4x2048x4096 .f32) (a1 : FVec Ideal S4096x4096 .f32) (a2 : FVec Ideal S4096 .f32)
    (a3 : IVec S4096x128 32) (h : fn (F := Ideal) a0 a1 a2 a3 = fun _ => 1#1) :
    (∀ j, ∃ r : ℝ, a0 j = r) ∧ (∀ j, ∃ r : ℝ, a1 j = r) ∧ (∀ j, ∃ r : ℝ, a2 j = r) := by
  haveI := scalarIdx
  have h0 := congrFun h ValueIdx.ix0
  dsimp only [fn] at h0
  obtain ⟨h38, h12⟩ := IntOp.andi_eq_one.1 h0
  obtain ⟨h3, h7⟩ := IntOp.andi_eq_one.1 h38
  exact ⟨fun j => real_of_abs_lt _ (Host.reduce_andi_all _ _ _ _ _ h3 j),
    fun j => real_of_abs_lt _ (Host.reduce_andi_all _ _ _ _ _ h7 j),
    fun j => real_of_abs_lt _ (Host.reduce_andi_all _ _ _ _ _ h12 j)⟩

end Cert.Pre_finite_inputs.Finite

end
-- ==== Proof.lean ====
/-
  y = x · base_t + (x ⊙ coeff) · S,  where S is the ±1 matrix unpacked from the bits of `mask`,
  against a kernel that folds the two products into one:  y = x · W  with  W = base_t + coeff ⊙ S  (coeff scales
  the rows of S, that is, the contraction index).

  Over the extended reals the kernel's entry (r, q) is zero plus eight block sums, added in order, of
  x(r, k) · (base_t(k, q) + coeff(k) · S(k, q)); the reference's is
  ∑ₖ x(r, k) · base_t(k, q) + ∑ₖ (x(r, k) · coeff(k)) · S(k, q).  Regrouping the blocks into one sum is free;
  splitting each term is distributivity, which needs x, base_t and coeff to be real numbers: that is what the
  precondition gives.  S is real-valued whatever the mask holds, and is the same term in both programs, so its
  bits are never opened.  The changes of float format in the kernel are the identity at the extended reals, and
  both programs end in the same reshape.

  The three frames: the two kernel programs have theirs from their generated frame modules; the reference's is its
  generated run with the result dropped.  The idealization rewrote nothing, so `preserves` is `True`.
-/
import proofs.«411424_j76089640615939_3_alg».proof.Defs
import proofs.«411424_j76089640615939_3_alg».proof.Proof.Gen.Kernel
import proofs.«411424_j76089640615939_3_alg».proof.Proof.Gen.Kernel.Skeleton
import proofs.«411424_j76089640615939_3_alg».proof.Proof.Gen.Kernel.Launch
import proofs.«411424_j76089640615939_3_alg».proof.Proof.Gen.Kernel.Points
import proofs.«411424_j76089640615939_3_alg».proof.Proof.Gen.Kernel.Frame
import proofs.«411424_j76089640615939_3_alg».proof.Proof.Gen.KernelIdeal
import proofs.«411424_j76089640615939_3_alg».proof.Proof.Gen.KernelIdeal.Skeleton
import proofs.«411424_j76089640615939_3_alg».proof.Proof.Gen.KernelIdeal.Launch
import proofs.«411424_j76089640615939_3_alg».proof.Proof.Gen.KernelIdeal.Points
import proofs.«411424_j76089640615939_3_alg».proof.Proof.Gen.KernelIdeal.Frame
import proofs.«411424_j76089640615939_3_alg».proof.Proof.Gen.ReferenceIdeal
import proofs.«411424_j76089640615939_3_alg».proof.Proof.Gen.Pre_finite_inputs
import proofs.«411424_j76089640615939_3_alg».proof.Proof.Gen.ReferenceIdeal.Run
import proofs.«411424_j76089640615939_3_alg».proof.Proof.Gen.ReferenceIdeal.Read
import proofs.«411424_j76089640615939_3_alg».proof.Proof.Bridge
import proofs.«411424_j76089640615939_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with its arguments unchanged: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments both programs end, the kernel with its result at the blockwise
    fused product, split into 4 × 2048 rows, the reference at the split of its sum of two products: one array,
    because under the precondition x, base_t and coeff are real-valued. -/
theorem algebraic : Cert.algebraic_KernelIdeal_ReferenceIdeal := by
  intro m ρ m' ρ' hpre hagree
  refine ⟨fun c => Cert.KernelIdeal.Accum.splitRows (Cert.KernelIdeal.Accum.resultArr m c), Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hb, hc⟩ := Cert.Pre_finite_inputs.Finite.inputs_real _ _ _ _ (hpre c)
  rw [Cert.ReferenceIdeal.Read.val_main_v21_eq, (hagree c).1, (hagree c).2.1, (hagree c).2.2.1, (hagree c).2.2.2]
  exact (congrArg Cert.KernelIdeal.Accum.splitRows (Cert.Proof.Bridge.result_agrees m c hx hb hc)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
